-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x128 .f32) (main_arg6 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S100000x512 .f32) (main_arg1 : IVec S2x800000 32) (main_arg2 : FVec F S800000 .f32) (main_arg3 : FVec F S512x128 .f32) (main_arg4 : FVec F S128 .f32) (main_arg5 : FVec F S512x128 .f32) (main_arg6 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S512 : Shape := ⟨1, ![512]⟩
abbrev S100000x128 : Shape := ⟨2, ![100000, 128]⟩
abbrev S2000x512 : Shape := ⟨2, ![2000, 512]⟩
abbrev S2000x128 : Shape := ⟨2, ![2000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x512 : Shape := ⟨2, ![128, 512]⟩
abbrev S1x512 : Shape := ⟨2, ![1, 512]⟩

abbrev nBuf : Space → Nat
  | .hbm => 34
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S100000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S100000x128, .f32⟩
  | .hbm, ⟨26, _⟩ => ⟨S800000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S128x512, .f32⟩
  | .hbm, ⟨32, _⟩ => ⟨S1x512, .f32⟩
  | .hbm, ⟨33, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x512, .f32⟩
  | .local _ .vmem, ⟨8, _⟩ => ⟨S1x512, .f32⟩
  | .local _ .vmem, ⟨9, _⟩ => ⟨S2000x512, .f32⟩
  | .local _ .vmem, ⟨10, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  dot_S2000x512_S512x128_S2000x128_1_0_0_1_n_n_wf : DotDims.WF S2000x512 S512x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S100000x512.size a
  hwx1_3 : ∀ i : grid1.Coords, EltTy.bits .f32 = 32 ∨ (Rect.block (s := S100000x512) S2000x512.size (cc1_transform_3 i) (hinb1_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S512 : Shape := ⟨1, ![512]⟩
abbrev S100000x128 : Shape := ⟨2, ![100000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x512 : Shape := ⟨2, ![128, 512]⟩
abbrev S1x512 : Shape := ⟨2, ![1, 512]⟩

abbrev nBuf : Space → Nat
  | .hbm => 36
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S800000, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S512, .f32⟩
  | .hbm, ⟨7, _⟩ => ⟨S100000x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S100000x128, .f32⟩
  | .hbm, ⟨26, _⟩ => ⟨S800000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S128x512, .f32⟩
  | .hbm, ⟨32, _⟩ => ⟨S100000x512, .f32⟩
  | .hbm, ⟨33, _⟩ => ⟨S1x512, .f32⟩
  | .hbm, ⟨34, _⟩ => ⟨S100000x512, .f32⟩
  | .hbm, ⟨35, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  dot_S100000x512_S512x128_S100000x128_1_0_0_1_n_n_wf : DotDims.WF S100000x512 S512x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x512_S100000x512_1_0_0_1_n_n_wf : DotDims.WF S100000x128 S128x512 S100000x512 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf

class Facts : Prop extends Facts₀ where

variable [Facts]
-- ==== Proof.FirstProduct.lean ====
/-
  The first launch read as ONE array. At grid point t the first kernel multiplies rows 2000·t … 2000·t + 1999 of the
  input matrix by the whole weight matrix and writes the 2000 × 128 block of products back. Read on the extended reals
  (a change of float format is the identity, the accumulator is zero) entry (r, c) of that block is the sum over k of
  a(2000·t + r, k) · w(k, c): the entry (2000·t + r, c) of the product of the two whole matrices. The fifty row blocks
  tile the 100000 rows, so after the launch the array holds the whole product.
-/
import proofs.«125591_j14310831030635_1_alg».proof.Proof.Gen.KernelIdeal.Frame
import proofs.«125591_j14310831030635_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Idealize.ShloMosaic Idealize.ShloMosaic.TcCoe Idealize.SL.Sem
open Idealize.ShloMosaic.Pipeline (Dat Cfg Window)
open Cert.KernelIdeal Cert.KernelIdeal.Gen
open Cert.ReferenceIdeal.Read (val_main_v0 val_main_v0_apply lidx_main_v0 ridx_main_v0)

/-! ## One block product at an entry -/

theorem lhs_row (y : S2000x128.Idx) (q : dot_S2000x512_S512x128_S2000x128_1_0_0_1_n_n.contr.Idx) :
    (dot_S2000x512_S512x128_S2000x128_1_0_0_1_n_n.lhsIdx y q 0).val = (y 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_contr (y : S2000x128.Idx) (q : dot_S2000x512_S512x128_S2000x128_1_0_0_1_n_n.contr.Idx) :
    (dot_S2000x512_S512x128_S2000x128_1_0_0_1_n_n.lhsIdx y q 1).val = (q ⟨0, by decide⟩).val :=
  dot_S2000x512_S512x128_S2000x128_1_0_0_1_n_n.lhsIdx_val_of_single rfl y q
theorem rhs_contr (y : S2000x128.Idx) (q : dot_S2000x512_S512x128_S2000x128_1_0_0_1_n_n.contr.Idx) :
    (dot_S2000x512_S512x128_S2000x128_1_0_0_1_n_n.rhsIdx y q 0).val = (q ⟨0, by decide⟩).val :=
  dot_S2000x512_S512x128_S2000x128_1_0_0_1_n_n.rhsIdx_val_of_single rfl y q
theorem rhs_col (y : S2000x128.Idx) (q : dot_S2000x512_S512x128_S2000x128_1_0_0_1_n_n.contr.Idx) :
    (dot_S2000x512_S512x128_S2000x128_1_0_0_1_n_n.rhsIdx y q 1).val = (y 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Row `y 0`, column `k` of the block of input rows. -/
abbrev rowAt (y : S2000x128.Idx) (k : Fin 512) : S2000x512.Idx := fun a => match a with
  | ⟨0, _⟩ => ⟨(y 0).val, (y 0).isLt⟩
  | ⟨1, _⟩ => ⟨k.val, k.isLt⟩
/-- Row `k`, column `y 1` of the weight matrix. -/
abbrev colAt (y : S2000x128.Idx) (k : Fin 512) : S512x128.Idx := fun a => match a with
  | ⟨0, _⟩ => ⟨k.val, k.isLt⟩
  | ⟨1, _⟩ => ⟨(y 1).val, (y 1).isLt⟩

/-- The body's stored value at entry `y` of its block: the sum over the 512 contracted positions of the row block's
    entry times the weight's. -/
theorem pay_apply (xa : Vec Ideal S2000x512 .f32) (xw : Vec Ideal S512x128 .f32) (y : S2000x128.Idx) :
    k0_pay1 (F := Ideal) xa xw y = ∑ k : Fin 512, xa (rowAt y k) * xw (colAt y k) := by
  unfold k0_pay1
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx y ((ValueIdx.contrEquiv1 dot_S2000x512_S512x128_S2000x128_1_0_0_1_n_n 512 rfl rfl).symm k) = rowAt y k := funext fun a => Fin.ext (by
    match a with
    | ⟨0, _⟩ => exact lhs_row _ _
    | ⟨1, _⟩ => exact (lhs_contr _ _).trans hk)
  have er : dot_S2000x512_S512x128_S2000x128_1_0_0_1_n_n.rhsIdx y ((ValueIdx.contrEquiv1 dot_S2000x512_S512x128_S2000x128_1_0_0_1_n_n 512 rfl rfl).symm k) = colAt y k := funext fun a => Fin.ext (by
    match a with
    | ⟨0, _⟩ => exact (rhs_contr _ _).trans hk
    | ⟨1, _⟩ => exact rhs_col _ _)
  rw [el, er]
  rfl

/-! ## A block of products is a block of rows of the whole product -/

/-- The same sum, read off the whole matrices: entry `y` of a block whose row block agrees with rows of `a` along
    `i`'s row, and whose weights are `w`, is entry `i` of the whole product. -/
theorem pay_eq_product (xa : Vec Ideal S2000x512 .f32) (xw : Vec Ideal S512x128 .f32)
    (a : (⟨Cert.ReferenceIdeal.S100000x512, .f32⟩ : BufTy).Contents (Elt Ideal))
    (w : (⟨Cert.ReferenceIdeal.S512x128, .f32⟩ : BufTy).Contents (Elt Ideal))
    (y : S2000x128.Idx) (i : Cert.ReferenceIdeal.S100000x128.Idx)
    (ha : ∀ k : Fin 512, xa (rowAt y k) = a (lidx_main_v0 i k))
    (hw : ∀ k : Fin 512, xw (colAt y k) = w (ridx_main_v0 i k)) :
    k0_pay1 (F := Ideal) xa xw y = val_main_v0 (F := Ideal) a w i := by
  rw [val_main_v0_apply, pay_apply]
  exact Finset.sum_congr rfl fun k _ => by rw [ha k, hw k]

theorem zero_offsets : (![0, 0] : Fin 2 → Nat) = fun _ => 0 := funext fun a => by fin_cases a <;> rfl

/-- The printed index maps over the fifty grid points: the row block moves with the output block, which is block `t`
    of the rows; the weight block and every column block index stay at zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- WHAT POINT `t` WRITES BACK is block `t` of the whole product of the arrays the launch finds. -/
theorem flushed_eq (c : Dev nD) (t : Fin cfg0.N) :
    (dat0 V c).flushed 2 t = ((cfg0.win 2).blk t).view.read (Elt Ideal) (val_main_v0 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨e0, e1, e2, e3, e4, e5⟩ := index_facts t
  funext j
  show k0_pay1 (F := Ideal) (iblk0 V c 0 t) (iblk0 V c 1 t) j
    = val_main_v0 (F := Ideal) (V c main_arg0) (V c main_arg3) (((cfg0.win 2).blk t).view.emb j)
  refine pay_eq_product (iblk0 V c 0 t) (iblk0 V c 1 t) (V c main_arg0) (V c main_arg3) j _ (fun k => ?_) (fun k => ?_)
  · show V c main_arg0 (((cfg0.win 0).blk t).view.emb (rowAt j k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg3 (((cfg0.win 1).blk t).view.emb (colAt j k)) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry is written: row `r` lies in the block of point `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, e2, e3, e4, e5⟩ := index_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY after the first launch: the whole product of the two arrays the launch finds. -/
theorem product (c : Dev nD) :
    (dat0 V c).arrAt 2 cfg0.N = val_main_v0 (F := Ideal) (V c main_arg0) (V c main_arg3) :=
  (dat0 V c).arrAt_eq_of_cover 2 _ (fun t _ => flushed_eq V c t) cover

end

end Cert.KernelIdeal.FirstProduct

end
-- ==== Proof.SecondProduct.lean ====
/-
  The second launch read as ONE array. At grid point t the second kernel multiplies rows 2000·t … 2000·t + 1999 of the
  aggregated features by the whole transposed weight matrix, adds the one bias row to every row of the block, and writes
  the 2000 × 512 block back. On the extended reals entry (r, c) of that block is b(c) added to the sum over k of
  h(2000·t + r, k) · w(k, c): entry (2000·t + r, c) of "whole product plus the bias row laid along every row". The fifty
  row blocks tile the 100000 rows, so after the launch the array holds that whole function.
-/
import proofs.«125591_j14310831030635_1_alg».proof.Proof.Gen.KernelIdeal.Frame
import proofs.«125591_j14310831030635_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Idealize.ShloMosaic Idealize.ShloMosaic.TcCoe Idealize.SL.Sem
open Idealize.ShloMosaic.Pipeline (Dat Cfg Window)
open Cert.KernelIdeal Cert.KernelIdeal.Gen
open Cert.ReferenceIdeal.Read (lidx_main_v22 ridx_main_v22 idx_main_v24 lhs_main_v22_0 lhs_main_v22_1 rhs_main_v22_0 rhs_main_v22_1)

/-! ## The whole function the launch computes -/

/-- Entry `i` = (r, c) of "h times w, plus the row b along every row": b(0, c) added to the sum over the 128
    contracted positions of h(r, k) · w(k, c). -/
def affine (h : (⟨Cert.ReferenceIdeal.S100000x128, .f32⟩ : BufTy).Contents (Elt Ideal))
    (w : (⟨Cert.ReferenceIdeal.S128x512, .f32⟩ : BufTy).Contents (Elt Ideal))
    (b : (⟨Cert.ReferenceIdeal.S1x512, .f32⟩ : BufTy).Contents (Elt Ideal)) :
    (⟨Cert.ReferenceIdeal.S100000x512, .f32⟩ : BufTy).Contents (Elt Ideal) :=
  fun i => (∑ k : Fin 128, h (lidx_main_v22 i k) * w (ridx_main_v22 i k)) + b (idx_main_v24 i)

/-- The host's product of two whole matrices at an entry is that sum (no accumulator on the host). -/
theorem hostProduct_apply (h : FVec Ideal Cert.ReferenceIdeal.S100000x128 .f32)
    (w : FVec Ideal Cert.ReferenceIdeal.S128x512 .f32) (i : Cert.ReferenceIdeal.S100000x512.Idx) :
    Host.dotGeneral (F := Ideal) Cert.ReferenceIdeal.dot_S100000x128_S128x512_S100000x512_1_0_0_1_n_n none h w i = ∑ k : Fin 128, h (lidx_main_v22 i k) * w (ridx_main_v22 i k) := by
  simp only [Host.dotGeneral]
  rw [Ideal.dotGeneral_apply, ← Equiv.sum_comp (ValueIdx.contrEquiv1 Cert.ReferenceIdeal.dot_S100000x128_S128x512_S100000x512_1_0_0_1_n_n 128 rfl rfl).symm]
  refine Finset.sum_congr rfl fun k _ => ?_
  have hk := ValueIdx.contrEquiv1_symm_val Cert.ReferenceIdeal.dot_S100000x128_S128x512_S100000x512_1_0_0_1_n_n 128 rfl rfl k
  have el : Cert.ReferenceIdeal.dot_S100000x128_S128x512_S100000x512_1_0_0_1_n_n.lhsIdx i ((ValueIdx.contrEquiv1 Cert.ReferenceIdeal.dot_S100000x128_S128x512_S100000x512_1_0_0_1_n_n 128 rfl rfl).symm k) = lidx_main_v22 i k := funext fun a => Fin.ext (by
    match a with
    | ⟨0, _⟩ => exact lhs_main_v22_0 _ _
    | ⟨1, _⟩ => exact (lhs_main_v22_1 _ _).trans hk)
  have er : Cert.ReferenceIdeal.dot_S100000x128_S128x512_S100000x512_1_0_0_1_n_n.rhsIdx i ((ValueIdx.contrEquiv1 Cert.ReferenceIdeal.dot_S100000x128_S128x512_S100000x512_1_0_0_1_n_n 128 rfl rfl).symm k) = ridx_main_v22 i k := funext fun a => Fin.ext (by
    match a with
    | ⟨0, _⟩ => exact (rhs_main_v22_0 _ _).trans hk
    | ⟨1, _⟩ => exact rhs_main_v22_1 _ _)
  rw [el, er]

/-! ## One block at an entry -/

theorem lhs_row (y : S2000x512.Idx) (q : dot_S2000x128_S128x512_S2000x512_1_0_0_1_n_n.contr.Idx) :
    (dot_S2000x128_S128x512_S2000x512_1_0_0_1_n_n.lhsIdx y q 0).val = (y 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem lhs_contr (y : S2000x512.Idx) (q : dot_S2000x128_S128x512_S2000x512_1_0_0_1_n_n.contr.Idx) :
    (dot_S2000x128_S128x512_S2000x512_1_0_0_1_n_n.lhsIdx y q 1).val = (q ⟨0, by decide⟩).val :=
  dot_S2000x128_S128x512_S2000x512_1_0_0_1_n_n.lhsIdx_val_of_single rfl y q
theorem rhs_contr (y : S2000x512.Idx) (q : dot_S2000x128_S128x512_S2000x512_1_0_0_1_n_n.contr.Idx) :
    (dot_S2000x128_S128x512_S2000x512_1_0_0_1_n_n.rhsIdx y q 0).val = (q ⟨0, by decide⟩).val :=
  dot_S2000x128_S128x512_S2000x512_1_0_0_1_n_n.rhsIdx_val_of_single rfl y q
theorem rhs_col (y : S2000x512.Idx) (q : dot_S2000x128_S128x512_S2000x512_1_0_0_1_n_n.contr.Idx) :
    (dot_S2000x128_S128x512_S2000x512_1_0_0_1_n_n.rhsIdx y q 1).val = (y 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Row `y 0`, column `k` of the block of feature rows. -/
abbrev rowAt (y : S2000x512.Idx) (k : Fin 128) : S2000x128.Idx := fun a => match a with
  | ⟨0, _⟩ => ⟨(y 0).val, (y 0).isLt⟩
  | ⟨1, _⟩ => ⟨k.val, k.isLt⟩
/-- Row `k`, column `y 1` of the transposed weight matrix. -/
abbrev colAt (y : S2000x512.Idx) (k : Fin 128) : S128x512.Idx := fun a => match a with
  | ⟨0, _⟩ => ⟨k.val, k.isLt⟩
  | ⟨1, _⟩ => ⟨(y 1).val, (y 1).isLt⟩
/-- Column `y 1` of the one bias row. -/
abbrev biasAt (y : S2000x512.Idx) : S1x512.Idx := fun a => match a with
  | ⟨0, _⟩ => ⟨0, Nat.one_pos⟩
  | ⟨1, _⟩ => ⟨(y 1).val, (y 1).isLt⟩

/-- The body's stored value at entry `y` of its block: the bias at `y`'s column added to the sum over the 128
    contracted positions of the feature block's entry times the weight's. -/
theorem pay_apply (xh : Vec Ideal S2000x128 .f32) (xw : Vec Ideal S128x512 .f32) (xb : Vec Ideal S1x512 .f32) (y : S2000x512.Idx) :
    k1_pay1 (F := Ideal) xh xw xb y = (∑ k : Fin 128, xh (rowAt y k) * xw (colAt y k)) + xb (biasAt y) := by
  unfold k1_pay1
  simp only [matmul, shapeCast_self]
  rw [ValueIdx.addf_apply]
  refine congrArg₂ (fun p q : EReal => p + q) ?_ ?_
  · rw [Ideal.matmul_constant_zero_apply, ← Equiv.sum_comp (ValueIdx.contrEquiv1 dot_S2000x128_S128x512_S2000x512_1_0_0_1_n_n 128 rfl rfl).symm]
    refine Finset.sum_congr rfl fun k _ => ?_
    have hk := ValueIdx.contrEquiv1_symm_val dot_S2000x128_S128x512_S2000x512_1_0_0_1_n_n 128 rfl rfl k
    have el : dot_S2000x128_S128x512_S2000x512_1_0_0_1_n_n.lhsIdx y ((ValueIdx.contrEquiv1 dot_S2000x128_S128x512_S2000x512_1_0_0_1_n_n 128 rfl rfl).symm k) = rowAt y k := funext fun a => Fin.ext (by
      match a with
      | ⟨0, _⟩ => exact lhs_row _ _
      | ⟨1, _⟩ => exact (lhs_contr _ _).trans hk)
    have er : dot_S2000x128_S128x512_S2000x512_1_0_0_1_n_n.rhsIdx y ((ValueIdx.contrEquiv1 dot_S2000x128_S128x512_S2000x512_1_0_0_1_n_n 128 rfl rfl).symm k) = colAt y k := funext fun a => Fin.ext (by
      match a with
      | ⟨0, _⟩ => exact (rhs_contr _ _).trans hk
      | ⟨1, _⟩ => exact rhs_col _ _)
    rw [el, er]
    rfl
  · exact broadcastTo_apply xb broadcasts_S1x512_S2000x512 y (biasAt y) (fun a => match a with
      | ⟨0, _⟩ => by show 0 = if (1 : Nat) = 1 then 0 else (y 0).val; rw [if_pos rfl]
      | ⟨1, _⟩ => by show (y 1).val = if (512 : Nat) = 1 then 0 else (y 1).val; rw [if_neg (by decide)])

/-! ## A block is a block of rows of the whole function -/

/-- Entry `y` of a block whose feature rows agree with rows of `h` along `i`'s row, whose weights are `w` and whose
    bias row is `b`, is entry `i` of the whole function. -/
theorem pay_eq_affine (xh : Vec Ideal S2000x128 .f32) (xw : Vec Ideal S128x512 .f32) (xb : Vec Ideal S1x512 .f32)
    (h : (⟨Cert.ReferenceIdeal.S100000x128, .f32⟩ : BufTy).Contents (Elt Ideal))
    (w : (⟨Cert.ReferenceIdeal.S128x512, .f32⟩ : BufTy).Contents (Elt Ideal))
    (b : (⟨Cert.ReferenceIdeal.S1x512, .f32⟩ : BufTy).Contents (Elt Ideal))
    (y : S2000x512.Idx) (i : Cert.ReferenceIdeal.S100000x512.Idx)
    (hh : ∀ k : Fin 128, xh (rowAt y k) = h (lidx_main_v22 i k))
    (hw : ∀ k : Fin 128, xw (colAt y k) = w (ridx_main_v22 i k))
    (hb : xb (biasAt y) = b (idx_main_v24 i)) :
    k1_pay1 (F := Ideal) xh xw xb y = affine h w b i := by
  rw [pay_apply, hb]
  unfold affine
  exact congrArg (fun s : EReal => s + b (idx_main_v24 i)) (Finset.sum_congr rfl fun k _ => by rw [hh k, hw k])

theorem zero_offsets : (![0, 0] : Fin 2 → Nat) = fun _ => 0 := funext fun a => by fin_cases a <;> rfl

/-- The printed index maps over the fifty grid points: the feature block moves with the output block, which is block
    `t` of the rows; the weight block, the bias block and every column block index stay at zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- WHAT POINT `t` WRITES BACK is block `t` of the whole function of the arrays the launch finds. -/
theorem flushed_eq (c : Dev nD) (t : Fin cfg1.N) :
    (dat1 V c).flushed 3 t = ((cfg1.win 3).blk t).view.read (Elt Ideal) (affine (V c main_v20) (V c main_v21) (V c main_v22)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S128x512) zero_offsets, View.ld_unit_zero (S := S1x512) zero_offsets]
  obtain ⟨e0, e1, e2, e3, e4, e5, e6, e7⟩ := index_facts t
  funext j
  show k1_pay1 (F := Ideal) (iblk1 V c 0 t) (iblk1 V c 1 t) (iblk1 V c 2 t) j
    = affine (V c main_v20) (V c main_v21) (V c main_v22) (((cfg1.win 3).blk t).view.emb j)
  refine pay_eq_affine (iblk1 V c 0 t) (iblk1 V c 1 t) (iblk1 V c 2 t) (V c main_v20) (V c main_v21) (V c main_v22) j _ (fun k => ?_) (fun k => ?_) ?_
  · show V c main_v20 (((cfg1.win 0).blk t).view.emb (rowAt j k)) = _
    refine congrArg (V c main_v20) (funext fun a => Fin.ext ?_)
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  · show V c main_v21 (((cfg1.win 1).blk t).view.emb (colAt j k)) = _
    refine congrArg (V c main_v21) (funext fun a => Fin.ext ?_)
    match a with
    | ⟨0, _⟩ => show win1_1.index t (0 : Fin 2) * 128 + 1 * k.val = k.val; omega
    | ⟨1, _⟩ => show win1_1.index t (1 : Fin 2) * 512 + 1 * (j 1).val = win1_3.index t (1 : Fin 2) * 512 + 1 * (j 1).val; omega
  · show V c main_v22 (((cfg1.win 2).blk t).view.emb (biasAt j)) = _
    refine congrArg (V c main_v22) (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega

/-- An index of the array is in point `t`'s block iff each coordinate is in the block's range on its axis. -/
theorem mem_blk (t : Fin cfg1.N) (i : S100000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v23).slice (win1_3.rect t)).set ↔ _
  rw [View.set_slice_whole, Rect.mem_set_unit]
  exact Iff.rfl

/-- Every entry is written: row `r` lies in the block of point `r / 2000`. -/
theorem cover (i : S100000x512.Idx) :
    ∃ t : Fin cfg1.N, (cfg1.win 3).flush t = true ∧ i ∈ ((cfg1.win 3).blk t).view.set := by
  have hi0 : (i 0).val < 100000 := (i 0).isLt
  have hi1 : (i 1).val < 512 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  obtain ⟨e0, e1, e2, e3, e4, e5, e6, e7⟩ := index_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 512 ≤ (i 1).val ∧ (i 1).val < win1_3.index t (1 : Fin 2) * 512 + 512; omega

/-- THE ARRAY after the second launch: the whole function of the three arrays the launch finds. -/
theorem result (c : Dev nD) :
    (dat1 V c).arrAt 3 cfg1.N = affine (V c main_v20) (V c main_v21) (V c main_v22) :=
  (dat1 V c).arrAt_eq_of_cover 3 _ (fun t _ => flushed_eq V c t) cover

end

end Cert.KernelIdeal.SecondProduct

end
-- ==== Proof.Between.lean ====
/-
  Between the two launches the program aggregates over the edges on the host: it takes the row of the first launch's
  result at each edge's source (a negative index wrapped by adding 100000), scales it by the edge's weight, adds the
  800000 scaled rows up at the edges' destinations from zero, and adds the bias row to every row; it also transposes the
  second weight matrix and reshapes the second bias to one row. The reference applies the very same operations to its own
  first product, so the aggregation is carried as ONE function of that product and is never opened.
-/
import proofs.«125591_j14310831030635_1_alg».proof.Proof.Gen.KernelIdeal.Frame
import proofs.«125591_j14310831030635_1_alg».proof.Proof.Gen.ReferenceIdeal.Read
import Idealize.ShloMosaic.Lib.StableHlo.Run

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable {F : FTy → Type} [FloatOps F]

/-- The edge aggregation as a function of the features `x` it gathers from, the edge list `e` (row 0 the sources, row 1
    the destinations), the edge weights `ea` and the bias `bg`. -/
def aggregate (x : (⟨S100000x128, .f32⟩ : BufTy).Contents (Elt F)) (e : (⟨S2x800000, .i32⟩ : BufTy).Contents (Elt F))
    (ea : (⟨S800000, .f32⟩ : BufTy).Contents (Elt F)) (bg : (⟨S128, .f32⟩ : BufTy).Contents (Elt F)) :
    (⟨S100000x128, .f32⟩ : BufTy).Contents (Elt F) :=
  addf (Host.scatterAdd scatter_S100000x128_S800000x1_S800000x128_1_0_0_1
      (broadcastInDim S100000x128 ![] bcast_S_S100000x128 (constant S_ .f32 0x00000000#32))
      (broadcastInDim S800000x1 ![0] bcast_S800000_S800000x1_0 (shapeCast _ (extractStridedSlice S1x800000 ![1, 0] e slices_S2x800000_S1x800000_1_0) shapeCasts_S1x800000_S800000))
      (mulf (Host.gather gather_S100000x128_S800000x1_S800000x128_1_0_n_n_0_1_1128 x
          (broadcastInDim S800000x1 ![0] bcast_S800000_S800000x1_0
            (select (cmpi .slt (shapeCast _ (extractStridedSlice S1x800000 ![0, 0] e slices_S2x800000_S1x800000_0_0) shapeCasts_S1x800000_S800000) (broadcastInDim S800000 ![] bcast_S_S800000 (constantI S_ 32 0#32)))
              (addi (shapeCast _ (extractStridedSlice S1x800000 ![0, 0] e slices_S2x800000_S1x800000_0_0) shapeCasts_S1x800000_S800000) (broadcastInDim S800000 ![] bcast_S_S800000 (constantI S_ 32 100000#32)))
              (shapeCast _ (extractStridedSlice S1x800000 ![0, 0] e slices_S2x800000_S1x800000_0_0) shapeCasts_S1x800000_S800000))))
        (broadcastInDim S800000x128 ![0, 1] bcast_S800000x1_S800000x128_0_1 (broadcastInDim S800000x1 ![0] bcast_S800000_S800000x1_0 ea))))
    (broadcastInDim S100000x128 ![0, 1] bcast_S1x128_S100000x128_0_1 (broadcastInDim S1x128 ![1] bcast_S128_S1x128_1 bg))

/-- The reference's aggregated features are the same function of ITS first product. -/
theorem reference_aggregate (x0 : (⟨Cert.ReferenceIdeal.S100000x512, .f32⟩ : BufTy).Contents (Elt F))
    (x1 : (⟨Cert.ReferenceIdeal.S2x800000, .i32⟩ : BufTy).Contents (Elt F))
    (x2 : (⟨Cert.ReferenceIdeal.S800000, .f32⟩ : BufTy).Contents (Elt F))
    (x3 : (⟨Cert.ReferenceIdeal.S512x128, .f32⟩ : BufTy).Contents (Elt F))
    (x4 : (⟨Cert.ReferenceIdeal.S128, .f32⟩ : BufTy).Contents (Elt F)) :
    Cert.ReferenceIdeal.Read.val_main_v20 (F := F) x0 x1 x2 x3 x4
      = aggregate (Cert.ReferenceIdeal.Read.val_main_v0 (F := F) x0 x3) x1 x2 x4 := rfl

variable (m : (ℓ : Loc nD τ sig) → Buf (Elt F) ℓ) (ρ : Dev nD → PrngReg)

set_option maxHeartbeats 2000000 in
/-- What the second launch finds in its feature array: the aggregation of what the first launch left. -/
theorem entry_features (c : Dev nD) :
    V2 m ρ c main_v20 = aggregate (W1 m ρ c (Proc.devRef .tc main_v0)) (m ((c : Thread nD τ).loc main_arg1))
      (m ((c : Thread nD τ).loc main_arg2)) (m ((c : Thread nD τ).loc main_arg4)) := by
  show StableHlo.after hostOps1 (W1 m ρ c) (Proc.devRef .tc main_v20) = _
  after_results_simp
  rw [W1_of_ne m ρ c main_arg1 (by decide), W1_of_ne m ρ c main_arg2 (by decide), W1_of_ne m ρ c main_arg4 (by decide)]
  rfl

/-- What it finds in its weight array: the second weight matrix transposed. -/
theorem entry_weights (c : Dev nD) :
    V2 m ρ c main_v21 = transpose S128x512 [1, 0] (m ((c : Thread nD τ).loc main_arg5)) transposes_S512x128_S128x512_1_0 := by
  show StableHlo.after hostOps1 (W1 m ρ c) (Proc.devRef .tc main_v21) = _
  after_results_simp
  rw [W1_of_ne m ρ c main_arg5 (by decide)]

/-- What it finds in its bias array: the second bias as one row. -/
theorem entry_bias (c : Dev nD) :
    V2 m ρ c main_v22 = shapeCast S1x512 (m ((c : Thread nD τ).loc main_arg6)) shapeCasts_S512_S1x512 := by
  show StableHlo.after hostOps1 (W1 m ρ c) (Proc.devRef .tc main_v22) = _
  after_results_simp
  rw [W1_of_ne m ρ c main_arg6 (by decide)]
  rfl

end Cert.KernelIdeal.Between

end
-- ==== Proof.Whole.lean ====
/-
  The kernel's result as one function of its arguments. Chaining the three pieces — after the first launch its output
  array is the whole product of the inputs with the first weights; the host aggregates that product over the edges; after
  the second launch its output array is the aggregated features times the transposed second weights plus the bias row —
  the result array is, entry by entry, what the reference computes by the same three steps. Nothing here uses that the
  inputs are finite: the two sides are the same sums of the same products in the same order.
-/
import proofs.«125591_j14310831030635_1_alg».proof.Proof.FirstProduct
import proofs.«125591_j14310831030635_1_alg».proof.Proof.SecondProduct
import proofs.«125591_j14310831030635_1_alg».proof.Proof.Between

set_option maxRecDepth 16384

noncomputable section

namespace Cert.KernelIdeal.Whole

open Idealize.ShloMosaic Idealize.ShloMosaic.TcCoe Idealize.SL.Sem
open Cert.KernelIdeal Cert.KernelIdeal.Gen
open Cert.ReferenceIdeal.Read (val_main_v0 val_main_v20 val_main_v21 val_main_v22 val_main_v23 val_main_v24 val_main_v25
  val_main_v25_apply val_main_v22_apply val_main_v24_apply val_main_v23_apply idx_main_v23 idx_main_v24)

/-- The bias as one row, read at an entry, is the bias vector at that entry's column. -/
theorem bias_row (x6 : FVec Ideal S512 .f32) (j : S1x512.Idx) :
    shapeCast S1x512 x6 shapeCasts_S512_S1x512 j = x6 (idx_main_v23 j) := by
  refine shapeCast_apply x6 shapeCasts_S512_S1x512 j (idx_main_v23 j) ?_
  rw [Shape.rowMajor_val_one, Shape.rowMajor_val_two]
  have h0 : (j 0).val < 1 := (j 0).isLt
  show (j 1).val = (j 0).val * 512 + (j 1).val
  omega

/-- The reference's result is the same whole function — product plus the bias row along every row — of ITS aggregated
    features, its transposed weights and any row that reads the bias vector column by column. -/
theorem reference_result (x0 : FVec Ideal Cert.ReferenceIdeal.S100000x512 .f32) (x1 : IVec Cert.ReferenceIdeal.S2x800000 32)
    (x2 : FVec Ideal Cert.ReferenceIdeal.S800000 .f32) (x3 : FVec Ideal Cert.ReferenceIdeal.S512x128 .f32)
    (x4 : FVec Ideal Cert.ReferenceIdeal.S128 .f32) (x5 : FVec Ideal Cert.ReferenceIdeal.S512x128 .f32)
    (x6 : FVec Ideal Cert.ReferenceIdeal.S512 .f32) (b : FVec Ideal Cert.ReferenceIdeal.S1x512 .f32)
    (hb : ∀ j : Cert.ReferenceIdeal.S1x512.Idx, b j = x6 (idx_main_v23 j)) :
    SecondProduct.affine (val_main_v20 (F := Ideal) x0 x1 x2 x3 x4) (val_main_v21 (F := Ideal) x5) b
      = val_main_v25 (F := Ideal) x0 x1 x2 x3 x4 x5 x6 := by
  funext i
  unfold SecondProduct.affine
  rw [val_main_v25_apply, val_main_v22_apply, val_main_v24_apply, val_main_v23_apply, hb]
  rfl

variable (m : (ℓ : Loc nD τ sig) → Buf (Elt Ideal) ℓ) (ρ : Dev nD → PrngReg)

/-- THE RESULT ARRAY after the run is the reference's last stage of the launch contents of the seven arguments. -/
theorem result_eq (c : Dev nD) :
    W3 m ρ c (Proc.devRef .tc main_v23) = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h3 : W3 m ρ c (Proc.devRef .tc main_v23) = (dat1 (V2 m ρ) c).arrAt 3 cfg1.N := W3_arr m ρ c 3
  have h1 : W1 m ρ c (Proc.devRef .tc main_v0) = (dat0 (V0 m ρ) c).arrAt 2 cfg0.N := W1_arr m ρ c 2
  rw [h3, SecondProduct.result (V2 m ρ) c, Between.entry_features m ρ c, Between.entry_weights m ρ c,
    Between.entry_bias m ρ c, h1, FirstProduct.product (V0 m ρ) c]
  exact reference_result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _ (bias_row (m ((c : Thread nD τ).loc main_arg6)))

end Cert.KernelIdeal.Whole

end
-- ==== Proof.lean ====
/-
  A two-layer graph convolution: x = inputs · W_gcn; h = for every node the sum, over the edges that end in it, of the
  edge's weight times the row of x at the edge's source, plus b_gcn; out = h · W_fcᵀ + b_fc.

  The kernel computes the two matrix products in two launches, each over fifty blocks of 2000 rows (its inputs cast to
  bf16 first, which on the extended reals changes nothing), and leaves the edge aggregation to the host between them;
  the reference computes both products on the host. Read on the extended reals a block of either launch is the same
  rows of the whole product — the same sums of the same products, term for term —, the blocks tile the rows, and the
  aggregation is one and the same function applied to equal arrays. So the two results agree entry by entry, for every
  input (finiteness of the inputs is never used: no term is moved across a sum).

  Proof/FirstProduct.lean and Proof/SecondProduct.lean read each launch's output array as one whole function;
  Proof/Between.lean names the aggregation; Proof/Whole.lean chains them into the reference's own last stage;
  Proof/KernelRun.lean is the program's run with its result array named. The three frames are the generated ones (the
  reference's is its generated run with the result dropped); nothing was rewritten in idealizing the kernel, so the
  idealization claim is trivial.
-/
import proofs.«125591_j14310831030635_1_alg».proof.Defs
import proofs.«125591_j14310831030635_1_alg».proof.Proof.Gen.Kernel
import proofs.«125591_j14310831030635_1_alg».proof.Proof.Gen.Kernel.Skeleton
import proofs.«125591_j14310831030635_1_alg».proof.Proof.Gen.Kernel.Launch
import proofs.«125591_j14310831030635_1_alg».proof.Proof.Gen.Kernel.Points
import proofs.«125591_j14310831030635_1_alg».proof.Proof.Gen.Kernel.Frame
import proofs.«125591_j14310831030635_1_alg».proof.Proof.Gen.KernelIdeal
import proofs.«125591_j14310831030635_1_alg».proof.Proof.Gen.KernelIdeal.Skeleton
import proofs.«125591_j14310831030635_1_alg».proof.Proof.Gen.KernelIdeal.Launch
import proofs.«125591_j14310831030635_1_alg».proof.Proof.Gen.KernelIdeal.Points
import proofs.«125591_j14310831030635_1_alg».proof.Proof.Gen.KernelIdeal.Frame
import proofs.«125591_j14310831030635_1_alg».proof.Proof.Gen.ReferenceIdeal
import proofs.«125591_j14310831030635_1_alg».proof.Proof.Gen.Pre_finite_inputs
import proofs.«125591_j14310831030635_1_alg».proof.Proof.Gen.ReferenceIdeal.Run
import proofs.«125591_j14310831030635_1_alg».proof.Proof.Gen.ReferenceIdeal.Read
import proofs.«125591_j14310831030635_1_alg».proof.Proof.KernelRun
import proofs.«125591_j14310831030635_1_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result arrays: the kernel by
    the chain of its three pieces, the reference by its own run. -/
theorem algebraic : Cert.algebraic_KernelIdeal_ReferenceIdeal := by
  intro m ρ m' ρ' _ hagree
  refine ⟨fun c => Cert.ReferenceIdeal.Read.val_main_v25 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
